-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : IVec S800000 32) (main_arg2 : IVec S800000 32) (main_arg3 : FVec F S800000 .f32) (main_arg4 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x256 : Shape := ⟨2, ![128, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 37
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S50000x1, .f32⟩
  | .hbm, ⟨14, _⟩ => ⟨S50000x128, .f32⟩
  | .hbm, ⟨15, _⟩ => ⟨S50000x128, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S_, .f32⟩
  | .hbm, ⟨6, _⟩ => ⟨S50000, .f32⟩
  | .hbm, ⟨7, _⟩ => ⟨S800000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S50000x1, .f32⟩
  | .hbm, ⟨14, _⟩ => ⟨S50000x128, .f32⟩
  | .hbm, ⟨15, _⟩ => ⟨S50000x128, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.Layer.lean ====
/-
  The dense layer both programs end with, as one function of the pooled features and the weight matrix.

  For pooled features `P` (50000 nodes by 128 features) and weights `W` (128 by 256), output entry `(r, q)` is
      max ( Σ_{k < 128} P[r, k] · W[k, q] , 0 )
  on the extended reals: a row of `P` against a column of `W`, then the rectifier. The zero of the rectifier is kept
  as the float word both programs print, so it is the same term on both sides and is never evaluated.

  Entry `(r, q)` depends on row `r` of `P` only, which is why a tiling of the nodes into blocks of rows computes the
  same array block by block.
-/
import Idealize.ShloMosaic.PureOps.Ideal
import Idealize.ShloMosaic.Lib.ValueIdx

noncomputable section

namespace Cert.Layer

open Idealize.ShloMosaic Idealize.ShloMosaic.ValueIdx

/-- Pooled features: 50000 nodes by 128 features. -/
abbrev SNodesFeat : Shape := ⟨2, ![50000, 128]⟩
/-- The weight matrix: 128 features by 256 units. -/
abbrev SFeatUnits : Shape := ⟨2, ![128, 256]⟩
/-- The layer's output: 50000 nodes by 256 units. -/
abbrev SNodesUnits : Shape := ⟨2, ![50000, 256]⟩

/-- The rectified projection `max (P · W, 0)`, entry by entry. -/
def reluProj (P : FVec Ideal SNodesFeat .f32) (W : FVec Ideal SFeatUnits .f32) : FVec Ideal SNodesUnits .f32 := fun i =>
  max (∑ k : Fin 128, P (ix2 (⟨(i 0).val, (i 0).isLt⟩ : Fin 50000) k) * W (ix2 k (⟨(i 1).val, (i 1).isLt⟩ : Fin 256)))
    (Ideal.ofBits .f32 0x00000000#32)

/-- At node `r` and unit `q`: row `r` of `P` against column `q` of `W`, rectified. -/
theorem reluProj_apply (P : FVec Ideal SNodesFeat .f32) (W : FVec Ideal SFeatUnits .f32) (r : Fin 50000) (q : Fin 256) :
    reluProj P W (ix2 r q) = max (∑ k : Fin 128, P (ix2 r k) * W (ix2 k q)) (Ideal.ofBits .f32 0x00000000#32) := rfl

end Cert.Layer

end
-- ==== Proof.BlockProduct.lean ====
/-
  What the kernel body stores for one block of 5000 nodes, read at an entry.

  The body loads a block `x` of 5000 rows of the pooled features and the whole weight matrix `w`, narrows both to
  bf16 (the identity on the extended reals), multiplies them into a zero accumulator, and rectifies against zero. So
  at row `p` of the block and unit `q` the stored value is
      max ( Σ_{k < 128} x[p, k] · w[k, q] , 0 ).
  The product into a zero accumulator is the plain sum over the contracted axis; the sum over the contraction's
  one-axis index type is re-indexed to a sum over `k < 128`, and the operand indices at `(p, q)` and `k` are
  `(p, k)` on the left and `(k, q)` on the right, one axis at a time.
-/
import proofs.«172398_j12120397709394_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx

/-- Left operand, node axis: the output's row. -/
theorem lhs_axis0 (i : S5000x256.Idx) (c : dot_S5000x128_S128x256_S5000x256_1_0_0_1_n_n.contr.Idx) :
    (dot_S5000x128_S128x256_S5000x256_1_0_0_1_n_n.lhsIdx i c 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- Left operand, feature axis: the contracted coordinate. -/
theorem lhs_axis1 (i : S5000x256.Idx) (c : dot_S5000x128_S128x256_S5000x256_1_0_0_1_n_n.contr.Idx) :
    (dot_S5000x128_S128x256_S5000x256_1_0_0_1_n_n.lhsIdx i c 1).val = (c ⟨0, by decide⟩).val :=
  dot_S5000x128_S128x256_S5000x256_1_0_0_1_n_n.lhsIdx_val_of_single rfl i c
/-- Right operand, feature axis: the contracted coordinate. -/
theorem rhs_axis0 (i : S5000x256.Idx) (c : dot_S5000x128_S128x256_S5000x256_1_0_0_1_n_n.contr.Idx) :
    (dot_S5000x128_S128x256_S5000x256_1_0_0_1_n_n.rhsIdx i c 0).val = (c ⟨0, by decide⟩).val :=
  dot_S5000x128_S128x256_S5000x256_1_0_0_1_n_n.rhsIdx_val_of_single rfl i c
/-- Right operand, unit axis: the output's column. -/
theorem rhs_axis1 (i : S5000x256.Idx) (c : dot_S5000x128_S128x256_S5000x256_1_0_0_1_n_n.contr.Idx) :
    (dot_S5000x128_S128x256_S5000x256_1_0_0_1_n_n.rhsIdx i c 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The stored block at row `p`, unit `q`: the row of the loaded block against the column of the weights, rectified. -/
theorem stored_apply (x : Vec Ideal S5000x128 .f32) (w : Vec Ideal S128x256 .f32) (p : Fin 5000) (q : Fin 256) :
    k0_pay1 (F := Ideal) x w (ix2 p q)
      = max (∑ k : Fin 128, x (ix2 p k) * w (ix2 k q)) (Ideal.ofBits .f32 0x00000000#32) := by
  unfold k0_pay1
  rw [shapeCast_self]
  show max (FloatOps.matmul dot_S5000x128_S128x256_S5000x256_1_0_0_1_n_n none _ _ (constant S5000x256 .f32 0x00000000#32) (ix2 p q))
    (Ideal.ofBits .f32 0x00000000#32) = _
  rw [Ideal.matmul_constant_zero_apply, ← Equiv.sum_comp (contrEquiv1 dot_S5000x128_S128x256_S5000x256_1_0_0_1_n_n 128 rfl rfl).symm]
  refine congrArg (fun s => max s (Ideal.ofBits .f32 0x00000000#32)) (Finset.sum_congr rfl fun k _ => ?_)
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

end Cert.KernelIdeal.BlockProduct

end
-- ==== Proof.BlockOfLayer.lean ====
/-
  A block of rows of the layer is the layer of that block of rows.

  Let `x` be rows `b·5000 … b·5000 + 4999` of the pooled features `P` (all 128 columns), `w` the whole weight matrix
  `W`, and let an output block sit at the same rows (all 256 columns). Entry `(p, q)` of what the body stores is
  `max (Σ_k x[p, k] · w[k, q], 0) = max (Σ_k P[b·5000 + p, k] · W[k, q], 0)`, which is entry `(b·5000 + p, q)` of the
  whole layer: the sum runs over the contracted axis only, which the tiling does not cut.

  The three placements are given as maps of indices with their coordinates stated as equations of naturals, so that
  the lemma can be used for any way of writing the placement.
-/
import proofs.«172398_j12120397709394_1_alg».proof.Proof.Layer
import proofs.«172398_j12120397709394_1_alg».proof.Proof.BlockProduct

noncomputable section

namespace Cert.KernelIdeal.BlockProduct

open Cert.KernelIdeal Cert.KernelIdeal.Gen Cert.Layer Idealize.ShloMosaic Idealize.ShloMosaic.ValueIdx

/-- The stored block, read at any entry, is the whole layer read where the output block places that entry. -/
theorem stored_eq_layer (P : FVec Ideal SNodesFeat .f32) (W : FVec Ideal SFeatUnits .f32)
    (x : Vec Ideal S5000x128 .f32) (w : Vec Ideal S128x256 .f32) (b : Nat)
    (inP : S5000x128.Idx → SNodesFeat.Idx) (inW : S128x256.Idx → SFeatUnits.Idx) (out : S5000x256.Idx → SNodesUnits.Idx)
    (hx : ∀ y, x y = P (inP y)) (hw : ∀ y, w y = W (inW y))
    (hP0 : ∀ y, (inP y 0).val = b * 5000 + (y 0).val) (hP1 : ∀ y, (inP y 1).val = (y 1).val)
    (hW0 : ∀ y, (inW y 0).val = (y 0).val) (hW1 : ∀ y, (inW y 1).val = (y 1).val)
    (hO0 : ∀ j, (out j 0).val = b * 5000 + (j 0).val) (hO1 : ∀ j, (out j 1).val = (j 1).val)
    (j : S5000x256.Idx) :
    k0_pay1 (F := Ideal) x w j = reluProj P W (out j) := by
  obtain ⟨p, q, rfl⟩ : ∃ (p : Fin 5000) (q : Fin 256), j = ix2 p q := ⟨j 0, j 1, eq_ix2 j⟩
  rw [stored_apply]
  unfold reluProj
  refine congrArg (fun s => max s (Ideal.ofBits .f32 0x00000000#32)) (Finset.sum_congr rfl fun k _ => ?_)
  have eP : inP (ix2 p k) = ix2 (⟨(out (ix2 p q) 0).val, (out (ix2 p q) 0).isLt⟩ : Fin 50000) k := funext fun a => Fin.ext (by
    match a with
    | ⟨0, _⟩ => exact (hP0 (ix2 p k)).trans (hO0 (ix2 p q)).symm
    | ⟨1, _⟩ => exact hP1 (ix2 p k))
  have eW : inW (ix2 k q) = ix2 k (⟨(out (ix2 p q) 1).val, (out (ix2 p q) 1).isLt⟩ : Fin 256) := funext fun a => Fin.ext (by
    match a with
    | ⟨0, _⟩ => exact hW0 (ix2 k q)
    | ⟨1, _⟩ => exact (hW1 (ix2 k q)).trans (hO1 (ix2 p q)).symm)
  rw [hx, hw, eP, eW]

end Cert.KernelIdeal.BlockProduct

end
-- ==== Proof.ArrayValue.lean ====
/-
  The kernel's result array is the dense layer of the pooled features it was launched on.

  The grid has ten points. Point `t` reads rows `5000·t … 5000·t + 4999` of the pooled features (all 128 columns), the
  whole weight matrix, and writes rows `5000·t … 5000·t + 4999` of the result (all 256 columns). What it writes is
  the layer restricted to those rows, because an entry of the layer depends on its own row of the pooled features
  only. The ten row blocks tile the 50000 rows — row `r` lies in the block of point `r / 5000` — so after the run
  the whole result array is the layer.
-/
import proofs.«172398_j12120397709394_1_alg».proof.Proof.Gen.KernelIdeal.Value
import proofs.«172398_j12120397709394_1_alg».proof.Proof.BlockOfLayer

noncomputable section

namespace Cert.KernelIdeal.ArrayValue

open Cert.KernelIdeal Cert.KernelIdeal.Gen Cert.Layer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their blocks. -/
theorem origin : (![0, 0] : Fin 2 → Nat) = fun _ => 0 := funext fun a => by fin_cases a <;> rfl

/-- Where each window's block sits at a grid point: the pooled features' and the result's at the same block of rows,
    every other block coordinate zero; there are ten row blocks. -/
theorem placement : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem every_row_block : ∀ b : Fin 10, ∃ t : Fin cfg0.N, win0_2.index t = ![b.val, 0] :=
  (by decide +kernel : ∀ b : Fin 10, ∃ t : Fin grid0.N, win0_2.index t = ![b.val, 0])

/-- For ANY contents `A0` of the pooled-features array and `A1` of the weight array: what the body stores from
    point `t`'s blocks of them, written back, is point `t`'s block of rows of the layer of `A0` and `A1`. (Stated for
    arbitrary contents so that nothing here depends on how the pooled features were formed.) -/
theorem block_of_layer (c : Dev nD) (A0 : Buf (Elt Ideal) ((c : Thread nD τ).loc (Pipeline.arrRef spec0 0)))
    (A1 : Buf (Elt Ideal) ((c : Thread nD τ).loc (Pipeline.arrRef spec0 1))) (t : Fin cfg0.N) :
    (cfg0.win 2).cut (grid0.coords t)
        (out0_2 (((cfg0.win 0).blk t).view.read (Elt Ideal) A0) (((cfg0.win 1).blk t).view.read (Elt Ideal) A1))
      = ((cfg0.win 2).blk t).view.read (Elt Ideal) (reluProj A0 A1) := by
  unfold out0_2
  rw [View.canon_unit_zero origin]
  simp only [View.ld_unit_zero (S := S5000x128) origin, View.ld_unit_zero (S := S128x256) origin]
  obtain ⟨e0, e1, e2, e3, e4, e5⟩ := placement t
  funext j
  show k0_pay1 (F := Ideal) (((cfg0.win 0).blk t).view.read (Elt Ideal) A0) (((cfg0.win 1).blk t).view.read (Elt Ideal) A1) j
    = reluProj A0 A1 (((cfg0.win 2).blk t).view.emb j)
  exact BlockProduct.stored_eq_layer A0 A1
    (((cfg0.win 0).blk t).view.read (Elt Ideal) A0) (((cfg0.win 1).blk t).view.read (Elt Ideal) A1)
    (win0_2.index t (0 : Fin 2))
    ((cfg0.win 0).blk t).view.emb ((cfg0.win 1).blk t).view.emb ((cfg0.win 2).blk t).view.emb
    (fun _ => rfl) (fun _ => rfl)
    (fun y => by show win0_0.index t (0 : Fin 2) * 5000 + 1 * (y 0).val = _; omega)
    (fun y => by show win0_0.index t (1 : Fin 2) * 128 + 1 * (y 1).val = _; omega)
    (fun y => by show win0_1.index t (0 : Fin 2) * 128 + 1 * (y 0).val = _; omega)
    (fun y => by show win0_1.index t (1 : Fin 2) * 256 + 1 * (y 1).val = _; omega)
    (fun y => by show win0_2.index t (0 : Fin 2) * 5000 + 1 * (y 0).val = _; omega)
    (fun y => by show win0_2.index t (1 : Fin 2) * 256 + 1 * (y 1).val = _; omega)
    j

/-- What grid point `t` writes back is its block of rows of the layer of the two arrays the region was entered with. -/
theorem flushed_eq (c : Dev nD) (t : Fin cfg0.N) :
    (dats m 0 c).flushed 2 t
      = ((cfg0.win 2).blk t).view.read (Elt Ideal)
          (reluProj (V m c (Pipeline.arrRef spec0 0)) (V m c (Pipeline.arrRef spec0 1))) := by
  rw [Value.flushed2]
  unfold iblk
  exact block_of_layer c (V m c (Pipeline.arrRef spec0 0)) (V m c (Pipeline.arrRef spec0 1)) t

/-- An entry of the result array lies in point `t`'s block iff each coordinate lies in the block's range. -/
theorem mem_block (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v26).slice (win0_2.rect t)).set ↔ _
  rw [View.set_slice_whole, Rect.mem_set_unit]
  exact Iff.rfl

/-- Every entry of the result array is written: row `r` by the point whose block of rows is `r / 5000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := every_row_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the run the result array is the layer of the two arrays the region was entered with. -/
theorem final (c : Dev nD) :
    (dats m 0 c).arrAt 2 cfg0.N = reluProj (V m c (Pipeline.arrRef spec0 0)) (V m c (Pipeline.arrRef spec0 1)) :=
  (dats m 0 c).arrAt_eq_of_cover 2 _ (fun t _ => flushed_eq m c t) covered

/-- The first of those arrays is the one the host prefix wrote last, the pooled features. -/
theorem entered_pooled (c : Dev nD) : V m c (Pipeline.arrRef spec0 0) = V m c main_v25 := rfl

/-- The second is the weight argument, which no host operation writes. -/
theorem entered_weights (c : Dev nD) : V m c (Pipeline.arrRef spec0 1) = m ((c : Thread nD τ).loc main_arg4) :=
  V_main_arg4 m c

/-- The kernel's run: it ends with the result array at the layer of the pooled features its host prefix formed and
    the weight argument, the arguments unchanged. -/
theorem run : θ_run defs (onTc (τ := τ) (main (F := Ideal))) ⟨m, fun _ => 0, ρ⟩ fun r => ∀ c : Dev nD,
      r.2.mem ((c : Thread nD τ).loc main_v26) = reluProj (V m c main_v25) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final m c)).trans (by rw [entered_pooled, entered_weights]), (h c).2⟩)
    (Value.run_blocks m ρ)

end Cert.KernelIdeal.ArrayValue

end
-- ==== Proof.ReferenceLayer.lean ====
/-
  The reference's result is the dense layer of its own pooled features.

  The reference forms the pooled features (its stage `%25`: the degree-normalised neighbourhood sum plus the
  self-loop term), multiplies them by the weights with one whole `dot_general`, and rectifies against a zero splat.
  Read at an entry `(r, q)` the product is `Σ_{k < 128} pooled[r, k] · W[k, q]`, the splat is the zero word, and the
  maximum of the two is the layer's entry. How the pooled features are formed plays no part: they enter as one array.
-/
import proofs.«172398_j12120397709394_1_alg».proof.Proof.Layer
import proofs.«172398_j12120397709394_1_alg».proof.Proof.Gen.ReferenceIdeal.Read

noncomputable section

namespace Cert.ReferenceIdeal.LayerValue

open Cert.ReferenceIdeal Cert.ReferenceIdeal.Gen Cert.ReferenceIdeal.Read Cert.Layer Idealize.ShloMosaic Idealize.ShloMosaic.ValueIdx

/-- The product's left operand at output entry `i` and contracted coordinate `k`: row `i 0`, column `k`. -/
theorem left_index (i : S50000x256.Idx) (k : Fin 128) :
    lidx_main_v26 i k = ix2 (⟨(i 0).val, (i 0).isLt⟩ : Fin 50000) k :=
  funext fun a => Fin.ext (by match a with | ⟨0, _⟩ => rfl | ⟨1, _⟩ => rfl)

/-- Its right operand there: row `k`, column `i 1`. -/
theorem right_index (i : S50000x256.Idx) (k : Fin 128) :
    ridx_main_v26 i k = ix2 k (⟨(i 1).val, (i 1).isLt⟩ : Fin 256) :=
  funext fun a => Fin.ext (by match a with | ⟨0, _⟩ => rfl | ⟨1, _⟩ => rfl)

/-- The reference's last stage is the rectified projection of its pooled stage by the weights. -/
theorem result_is_layer (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x256, .f32⟩ : BufTy).Contents (Elt Ideal)) :
    val_main_v27 (F := Ideal) x0 x1 x2 x3 x4 = reluProj (val_main_v25 (F := Ideal) x0 x1 x2 x3) x4 := by
  funext i
  rw [val_main_v27_apply, val_main_v26_apply, val_main_call0_v0_apply, val_main_call0_cst_apply]
  simp only [left_index, right_index]
  rfl

end Cert.ReferenceIdeal.LayerValue

end
-- ==== Proof.PooledAgree.lean ====
/-
  Both programs form the same pooled features.

  Before its one kernel launch the kernel's host code computes, from the features, the edge rows, the edge columns and
  the edge values, the array it hands to the launch as the left operand: the in-degree by a scatter-add of the edge
  values plus one, its inverse square root, the features scaled by it, the per-edge messages (edge value times the
  gathered scaled row), their scatter-add by edge row, plus the self-loop term. The reference computes its stage
  `%25` by the same operations in the same order with the same constants. So the array the launch finds is the
  reference's `%25` stage of the same four arguments; nothing about scatter or gather is used beyond their being
  the same functions on both sides.
-/
import proofs.«172398_j12120397709394_1_alg».proof.Proof.Gen.KernelIdeal.Frame
import proofs.«172398_j12120397709394_1_alg».proof.Proof.Gen.ReferenceIdeal.Read
import Idealize.ShloMosaic.Lib.StableHlo.Run

noncomputable section

namespace Cert.KernelIdeal.PooledAgree

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The launch's left operand is the reference's pooled stage of the kernel's own four arguments. -/
theorem pooled_eq (c : Dev nD) :
    (V m c main_v25 : S50000x128.Idx → EReal)
      = Cert.ReferenceIdeal.Read.val_main_v25 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results_simp <;> rfl

end Cert.KernelIdeal.PooledAgree

end
-- ==== Proof.lean ====
/-
  A graph-convolution layer: the kernel against its reference, equal over the extended reals.

  Both programs take node features (50000 by 128), 800000 edges as rows, columns and values, and a weight matrix
  (128 by 256). Both first form the pooled features on the host by the same operations: the in-degree (a
  scatter-add of edge values, plus one), its inverse square root `d`, the scaled features `d · x`, the messages
  (edge value times the gathered scaled row), their scatter-add by edge row, plus the self-loop term `d · (d · x)`.

  They differ only in the dense layer that follows. The reference multiplies the pooled features by the weights with
  one whole product and rectifies. The kernel cuts the 50000 nodes into ten blocks of 5000 rows; for each block it
  narrows the block and the weights to bf16, multiplies them into a zero accumulator, and rectifies. On the extended
  reals the narrowing is the identity and the product into zero is the plain sum, so each block holds
      max ( Σ_{k < 128} pooled[r, k] · W[k, q] , 0 )
  at its rows `r`, which is the reference's entry; the ten blocks tile the rows. No law beyond reading both products
  as the same sum is used, so the finiteness of the inputs is never called on.

  The three frames: the kernel's two are the generated frame runs; the reference has no kernel, and its frame is its
  generated run with the result dropped. The idealization rewrote nothing, so there is nothing to preserve.
-/
import proofs.«172398_j12120397709394_1_alg».proof.Defs
import proofs.«172398_j12120397709394_1_alg».proof.Proof.Gen.Kernel
import proofs.«172398_j12120397709394_1_alg».proof.Proof.Gen.Kernel.Skeleton
import proofs.«172398_j12120397709394_1_alg».proof.Proof.Gen.Kernel.Launch
import proofs.«172398_j12120397709394_1_alg».proof.Proof.Gen.Kernel.Points
import proofs.«172398_j12120397709394_1_alg».proof.Proof.Gen.Kernel.Frame
import proofs.«172398_j12120397709394_1_alg».proof.Proof.Gen.KernelIdeal
import proofs.«172398_j12120397709394_1_alg».proof.Proof.Gen.KernelIdeal.Skeleton
import proofs.«172398_j12120397709394_1_alg».proof.Proof.Gen.KernelIdeal.Launch
import proofs.«172398_j12120397709394_1_alg».proof.Proof.Gen.KernelIdeal.Points
import proofs.«172398_j12120397709394_1_alg».proof.Proof.Gen.KernelIdeal.Frame
import proofs.«172398_j12120397709394_1_alg».proof.Proof.Gen.ReferenceIdeal
import proofs.«172398_j12120397709394_1_alg».proof.Proof.Gen.Pre_finite_inputs
import proofs.«172398_j12120397709394_1_alg».proof.Proof.Gen.KernelIdeal.Value
import proofs.«172398_j12120397709394_1_alg».proof.Proof.Gen.ReferenceIdeal.Run
import proofs.«172398_j12120397709394_1_alg».proof.Proof.Gen.ReferenceIdeal.Read
import proofs.«172398_j12120397709394_1_alg».proof.Proof.Layer
import proofs.«172398_j12120397709394_1_alg».proof.Proof.ArrayValue
import proofs.«172398_j12120397709394_1_alg».proof.Proof.ReferenceLayer
import proofs.«172398_j12120397709394_1_alg».proof.Proof.PooledAgree
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both runs end with the result at the dense layer of the SAME pooled features and the
    same weights: the kernel's array block by block, the reference's by reading its product and its rectifier at an
    entry; and the two host prefixes form one pooled array. -/
theorem algebraic : Cert.algebraic_KernelIdeal_ReferenceIdeal := by
  intro m ρ m' ρ' _ hagree
  refine ⟨fun c => Cert.Layer.reluProj (Cert.KernelIdeal.Gen.V m c Cert.KernelIdeal.main_v25)
      (m ((c : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v27_eq, Cert.ReferenceIdeal.LayerValue.result_is_layer, a0, a1, a2, a3, a4]
  show _ = Cert.Layer.reluProj (Cert.KernelIdeal.Gen.V m c Cert.KernelIdeal.main_v25)
    (m ((c : Thread Cert.KernelIdeal.nD Cert.KernelIdeal.τ).loc Cert.KernelIdeal.main_arg4))
  rw [Cert.KernelIdeal.PooledAgree.pooled_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
